-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_v10) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S192x768 : Shape := ⟨2, ![192, 768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S192x768 : S_.BroadcastsInDim S192x768 (![] : Fin 0 → Fin S192x768.rank)
  reducesTo_S192x768_S_d0_1 : S192x768.ReducesTo [0, 1] S_

variable [Facts]

def fn {F : FTy → Type} [FloatOps F] (main_arg0 : FVec F S4x8192x768 .f32) (main_arg1 : FVec F S192x768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S192x768 .f32 := Host.absf main_arg1
  let main_cst_0 : FVec F S_ .f32 := constant S_ .f32 0x7F800000#32
  let main_v5 : FVec F S192x768 .f32 := broadcastInDim S192x768 ![] bcast_S_S192x768 main_cst_0
  let main_v6 : IVec S192x768 1 := cmpf .olt main_v4 main_v5
  let main_c_1 : IVec S_ 1 := constantI S_ 1 1#1
  let main_v7 : IVec S_ 1 := (fun x v => Host.reduce IntOp.andi x v reducesTo_S192x768_S_d0_1 h_S_) main_v6 main_c_1
  let main_v8 : IVec S_ 1 := andi main_v3 main_v7
  main_v8
-- ==== Kernel.lean ====
abbrev S4x8192x768 : Shape := ⟨3, ![4, 8192, 768]⟩
abbrev S192x768 : Shape := ⟨2, ![192, 768]⟩
abbrev S32768x768 : Shape := ⟨2, ![32768, 768]⟩
abbrev S768x192 : Shape := ⟨2, ![768, 192]⟩
abbrev S32768x1 : Shape := ⟨2, ![32768, 1]⟩
abbrev S2048x768 : Shape := ⟨2, ![2048, 768]⟩
abbrev S2048x1 : Shape := ⟨2, ![2048, 1]⟩
abbrev S2048x192 : Shape := ⟨2, ![2048, 192]⟩
abbrev S2048 : Shape := ⟨1, ![2048]⟩
abbrev S4x8192 : Shape := ⟨2, ![4, 8192]⟩
abbrev S_ : Shape := ⟨0, ![]⟩

abbrev nBuf : Space → Nat
  | .hbm => 13
  | .vmem => 7
  | .smem => 0
  | _ => 0

abbrev bufTy : (tb : Table) → Fin (tcTables nBuf tb) → BufTy
  | .hbm, ⟨0, _⟩ => ⟨S4x8192x768, .f32⟩
  | .hbm, ⟨1, _⟩ => ⟨S192x768, .f32⟩
  | .hbm, ⟨2, _⟩ => ⟨S32768x768, .f32⟩
  | .hbm, ⟨3, _⟩ => ⟨S768x192, .f32⟩
  | .hbm, ⟨4, _⟩ => ⟨S768x192, .bf16⟩
  | .hbm, ⟨5, _⟩ => ⟨S32768x1, .f32⟩
  | .hbm, ⟨6, _⟩ => ⟨S32768x1, .f32⟩
  | .hbm, ⟨7, _⟩ => ⟨S4x8192, .f32⟩
  | .hbm, ⟨8, _⟩ => ⟨S_, .f32⟩
  | .hbm, ⟨9, _⟩ => ⟨S4x8192, .f32⟩
  | .hbm, ⟨10, _⟩ => ⟨S4x8192, .i1⟩
  | .hbm, ⟨11, _⟩ => ⟨S4x8192, .i1⟩
  | .hbm, ⟨12, _⟩ => ⟨S4x8192, .f32⟩
  | .local _ .vmem, ⟨0, _⟩ => ⟨S2048x768, .f32⟩
  | .local _ .vmem, ⟨1, _⟩ => ⟨S2048x768, .f32⟩
  | .local _ .vmem, ⟨2, _⟩ => ⟨S768x192, .bf16⟩
  | .local _ .vmem, ⟨3, _⟩ => ⟨S2048x1, .f32⟩
  | .local _ .vmem, ⟨4, _⟩ => ⟨S2048x1, .f32⟩
  | .local _ .vmem, ⟨5, _⟩ => ⟨S2048x1, .f32⟩
  | .local _ .vmem, ⟨6, _⟩ => ⟨S2048x1, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x8192x768_S32768x768 : S4x8192x768.ShapeCasts S32768x768
  transposes_S192x768_S768x192_1_0 : S192x768.Transposes [1, 0] S768x192
  bitsLt_bf16_f32 : FTy.bits .bf16 < FTy.bits .f32
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  inb_S768x192_S768x192_0_0 : ∀ a, (![0, 0] : Fin 2 → Nat) a + S768x192.size a ≤ S768x192.size a
  h_S768x192 : 0 < S768x192.numel
  shapeCasts_S768x192_S768x192 : S768x192.ShapeCasts S768x192
  reduces_S2048x192_S2048 : S2048x192.Reduces [1] S2048
  shapeCasts_S2048_S2048x1 : S2048.ShapeCasts S2048x1
  natLt_1_32 : 1 < 32
  inb_S2048x1_S2048x1_0_0 : ∀ a, (![0, 0] : Fin 2 → Nat) a + S2048x1.size a ≤ S2048x1.size a
  h_S2048x1 : 0 < S2048x1.numel
  shapeCasts_S32768x1_S4x8192 : S32768x1.ShapeCasts S4x8192
  bcast_S_S4x8192 : S_.BroadcastsInDim S4x8192 (![] : Fin 0 → Fin S4x8192.rank)
  dot_S2048x768_S768x192_S2048x192_1_0_0_1_n_n_wf : DotDims.WF S2048x768 S768x192 S2048x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x768.size a ≤ S32768x768.size a
  hwx0_0 : ∀ i : grid0.Coords, EltTy.bits .f32 = 32 ∨ (Rect.block (s := S32768x768) S2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .bf16 = 32 ∨ (Rect.block (s := S768x192) S768x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S32768x1.size a
  hwx0_2 : ∀ i : grid0.Coords, EltTy.bits .f32 = 32 ∨ (Rect.block (s := S32768x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S32768x1.size a
  hwx0_3 : ∀ i : grid0.Coords, EltTy.bits .f32 = 32 ∨ (Rect.block (s := S32768x1) S2048x1.size (cc0_transform_3 i) (hinb0_3 i)).WholeWords (EltTy.packing .f32)

variable [Facts₀]

def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf

abbrev win0_0 : Pipeline.Window sig grid0 :=
  Pipeline.Window.ofSpec (Memref.whole main_v0) S2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S2048x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S2048x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S192x768 : Shape := ⟨2, ![192, 768]⟩
abbrev S32768x768 : Shape := ⟨2, ![32768, 768]⟩
abbrev S768x192 : Shape := ⟨2, ![768, 192]⟩
abbrev S32768x192 : Shape := ⟨2, ![32768, 192]⟩
abbrev S_ : Shape := ⟨0, ![]⟩
abbrev S32768 : Shape := ⟨1, ![32768]⟩
abbrev S4x8192 : Shape := ⟨2, ![4, 8192]⟩

abbrev nBuf : Space → Nat
  | .hbm => 18
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S192x768, .f32⟩
  | .hbm, ⟨2, _⟩ => ⟨S32768x768, .f32⟩
  | .hbm, ⟨3, _⟩ => ⟨S768x192, .f32⟩
  | .hbm, ⟨4, _⟩ => ⟨S32768x192, .f32⟩
  | .hbm, ⟨5, _⟩ => ⟨S32768x192, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S_, .f32⟩
  | .hbm, ⟨10, _⟩ => ⟨S32768, .f32⟩
  | .hbm, ⟨11, _⟩ => ⟨S32768, .i1⟩
  | .hbm, ⟨12, _⟩ => ⟨S4x8192, .i1⟩
  | .hbm, ⟨13, _⟩ => ⟨S_, .f32⟩
  | .hbm, ⟨14, _⟩ => ⟨S_, .f32⟩
  | .hbm, ⟨15, _⟩ => ⟨S32768, .f32⟩
  | .hbm, ⟨16, _⟩ => ⟨S32768, .f32⟩
  | .hbm, ⟨17, _⟩ => ⟨S4x8192, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  shapeCasts_S4x8192x768_S32768x768 : S4x8192x768.ShapeCasts S32768x768
  transposes_S192x768_S768x192_1_0 : S192x768.Transposes [1, 0] S768x192
  reducesTo_S32768x192_S32768_d1 : S32768x192.ReducesTo [1] S32768
  h_S_ : 0 < S_.numel
  bcast_S_S32768 : S_.BroadcastsInDim S32768 (![] : Fin 0 → Fin S32768.rank)
  shapeCasts_S32768_S4x8192 : S32768.ShapeCasts S4x8192
  dot_S32768x768_S768x192_S32768x192_1_0_0_1_n_n_wf : DotDims.WF S32768x768 S768x192 S32768x192 [1] [0] [0] [1] [] []

variable [Facts₀]

def dot_S32768x768_S768x192_S32768x192_1_0_0_1_n_n : DotDims S32768x768 S768x192 S32768x192 where
  lhsContracting := [1]
  rhsContracting := [0]
  lhsNonContracting := [0]
  rhsNonContracting := [1]
  lhsBatch := []
  rhsBatch := []
  wf := dot_S32768x768_S768x192_S32768x192_1_0_0_1_n_n_wf

class Facts : Prop extends Facts₀ where

variable [Facts]
-- ==== Proof.Spec.lean ====
/-
  The gate's mathematics, stated once over plain functions on the extended reals, with no program in sight.

  A token row `r` of the activations `X` (32768 rows of 768 entries) is projected by the transposed weight `Wt`
  (768 by 192) onto 192 numbers `rowProj X Wt r j = Σ_k X[r,k] · Wt[k,j]`; its score is the Euclidean norm of that
  projection, `rowScore X Wt r = √(Σ_j (rowProj X Wt r j)²)`. The row passes when its score is at least one half; the gated
  score keeps the score of a passing row and is minus infinity otherwise. Both results are laid out as a 4 by 8192
  table whose entry (a, b) is row `8192·a + b`.
-/
import Idealize.ShloMosaic.PureOps.Ideal
import Idealize.ShloMosaic.PureOps.Ideal.Laws
import Idealize.ShloMosaic.Lib.ValueIdx

noncomputable section

namespace Cert.GateSpec

open Idealize.ShloMosaic Idealize.ShloMosaic.ValueIdx

/-- The activations as a table of 32768 token rows. -/
abbrev SX : Shape := ⟨2, ![32768, 768]⟩
/-- The transposed weight. -/
abbrev SW : Shape := ⟨2, ![768, 192]⟩
/-- The results' table. -/
abbrev SR : Shape := ⟨2, ![4, 8192]⟩

/-- Entry `j` of row `r`'s projection. -/
def rowProj (X : SX.Idx → EReal) (Wt : SW.Idx → EReal) (r : Fin 32768) (j : Fin 192) : EReal :=
  ∑ k : Fin 768, X (ix2 r k) * Wt (ix2 k j)

/-- Row `r`'s score: the Euclidean norm of its projection. -/
def rowScore (X : SX.Idx → EReal) (Wt : SW.Idx → EReal) (r : Fin 32768) : EReal :=
  Ideal.sqrt (∑ j : Fin 192, rowProj X Wt r j * rowProj X Wt r j)

/-- A score passes when it is at least one half (the word is the float 0.5). -/
def pass (s : EReal) : BitVec 1 := Ideal.cmp .oge s (Ideal.ofBits .f32 0x3F000000#32)

/-- The gated score: the score where it passes, minus infinity (the word `0xFF800000`) where it does not. -/
def kept (s : EReal) : EReal := Scalar.select (pass s) s (Ideal.ofBits .f32 0xFF800000#32)

/-- The pass bit widened to a 32-bit integer and read as a number: one or zero. -/
def passNum (s : EReal) : EReal := ((((pass s).setWidth 32).toInt : ℝ) : EReal)

/-- Asking whether that number differs from zero gives the pass bit back. -/
theorem une_passNum (s : EReal) : Ideal.cmp .une (passNum s) (Ideal.ofBits .f32 0x00000000#32) = pass s := by
  rw [Ideal.ofBits_zero_f32]
  unfold passNum
  by_cases h : pass s = 1#1
  · rw [h]
    have e : ((1#1 : BitVec 1).setWidth 32).toInt = 1 := by decide
    rw [e]
    simp [Ideal.cmp]
  · rw [eq_zero_of_ne_one h]
    have e : ((0#1 : BitVec 1).setWidth 32).toInt = 0 := by decide
    rw [e]
    simp [Ideal.cmp]

/-- The token row behind entry (a, b) of the results' table. -/
def row (i : SR.Idx) : Fin 32768 :=
  ⟨(i 0).val * 8192 + (i 1).val, by have h0 : (i 0).val < 4 := (i 0).isLt; have h1 : (i 1).val < 8192 := (i 1).isLt; omega⟩

/-- The first result: which rows pass. -/
def maskTable (X : SX.Idx → EReal) (Wt : SW.Idx → EReal) : SR.Idx → BitVec 1 := fun i => pass (rowScore X Wt (row i))

/-- The second result: the gated scores. -/
def scoreTable (X : SX.Idx → EReal) (Wt : SW.Idx → EReal) : SR.Idx → EReal := fun i => kept (rowScore X Wt (row i))

end Cert.GateSpec

end
-- ==== Proof.BlockScore.lean ====
/-
  One block of the kernel, read entry by entry over the extended reals.

  At a grid point the body holds a block `x0` of 2048 token rows and the whole transposed weight `x1`. For the local
  row `p` it forms the 192 inner products `Σ_k x0[p,k] · x1[k,j]` (the matrix product into a zero accumulator: the
  narrowing of `x0` to bf16 changes nothing over the reals), squares them, sums the squares along the row, and takes
  the square root: `blockNorm x0 x1 p`. The two stored columns are, at local row `p`, the pass bit of that number read
  as 0 / 1, and the number itself where it passes and minus infinity where it does not.
-/
import proofs.«126774_g34643206210297_cont_8to1_b_1077_5_alg».proof.Proof.Gen.KernelIdeal.Skeleton
import proofs.«126774_g34643206210297_cont_8to1_b_1077_5_alg».proof.Proof.Spec
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx Cert.GateSpec

/-- Entry `j` of local row `p`'s projection, inside one block. -/
def blockProj (x0 : FVec Ideal S2048x768 .f32) (x1 : FVec Ideal S768x192 .bf16) (p : Fin 2048) (j : Fin 192) : EReal :=
  ∑ k : Fin 768, x0 (ix2 p k) * x1 (ix2 k j)

/-- Local row `p`'s score inside one block. -/
def blockNorm (x0 : FVec Ideal S2048x768 .f32) (x1 : FVec Ideal S768x192 .bf16) (p : Fin 2048) : EReal :=
  Ideal.sqrt (∑ j : Fin 192, blockProj x0 x1 p j * blockProj x0 x1 p j)

/-! ## The matrix product at an entry

The left operand is read at (row of the result, contraction index) and the right at (contraction index, column of the
result): the four coordinate facts of the product's dimension record. -/

theorem lhs_row (i : S2048x192.Idx) (q : dot_S2048x768_S768x192_S2048x192_1_0_0_1_n_n.contr.Idx) :
    (dot_S2048x768_S768x192_S2048x192_1_0_0_1_n_n.lhsIdx i q 0).val = (i 0).val := by
  unfold DotDims.lhsIdx
  rw [dif_neg (show ¬(0 : Fin S2048x768.rank) ∈ dot_S2048x768_S768x192_S2048x192_1_0_0_1_n_n.lhsBatch by decide), dif_pos (show (0 : Fin S2048x768.rank) ∈ dot_S2048x768_S768x192_S2048x192_1_0_0_1_n_n.lhsNonContracting by decide)]
  rfl
theorem lhs_contr (i : S2048x192.Idx) (q : dot_S2048x768_S768x192_S2048x192_1_0_0_1_n_n.contr.Idx) :
    (dot_S2048x768_S768x192_S2048x192_1_0_0_1_n_n.lhsIdx i q 1).val = (q ⟨0, by decide⟩).val :=
  dot_S2048x768_S768x192_S2048x192_1_0_0_1_n_n.lhsIdx_val_of_single rfl i q
theorem rhs_contr (i : S2048x192.Idx) (q : dot_S2048x768_S768x192_S2048x192_1_0_0_1_n_n.contr.Idx) :
    (dot_S2048x768_S768x192_S2048x192_1_0_0_1_n_n.rhsIdx i q 0).val = (q ⟨0, by decide⟩).val :=
  dot_S2048x768_S768x192_S2048x192_1_0_0_1_n_n.rhsIdx_val_of_single rfl i q
theorem rhs_col (i : S2048x192.Idx) (q : dot_S2048x768_S768x192_S2048x192_1_0_0_1_n_n.contr.Idx) :
    (dot_S2048x768_S768x192_S2048x192_1_0_0_1_n_n.rhsIdx i q 1).val = (i 1).val := by
  unfold DotDims.rhsIdx
  rw [dif_neg (show ¬(1 : Fin S768x192.rank) ∈ dot_S2048x768_S768x192_S2048x192_1_0_0_1_n_n.rhsBatch by decide), dif_pos (show (1 : Fin S768x192.rank) ∈ dot_S2048x768_S768x192_S2048x192_1_0_0_1_n_n.rhsNonContracting by decide)]
  rfl

/-- The product into a zero accumulator, at entry (p, j): the sum over the 768 contraction indices. -/
theorem matmul_at (l : FVec Ideal S2048x768 .bf16) (r : FVec Ideal S768x192 .bf16) (p : Fin 2048) (j : Fin 192) :
    matmul dot_S2048x768_S768x192_S2048x192_1_0_0_1_n_n none l r (constant (F := Ideal) S2048x192 .f32 0x00000000#32) (ix2 p j)
      = ∑ k : Fin 768, l (ix2 p k) * r (ix2 k j) := by
  simp only [matmul]
  rw [Ideal.matmul_constant_zero_apply, ← Equiv.sum_comp (contrEquiv1 dot_S2048x768_S768x192_S2048x192_1_0_0_1_n_n 768 rfl rfl).symm]
  refine Finset.sum_congr rfl fun k _ => ?_
  have hk := contrEquiv1_symm_val dot_S2048x768_S768x192_S2048x192_1_0_0_1_n_n 768 rfl rfl k
  have el : dot_S2048x768_S768x192_S2048x192_1_0_0_1_n_n.lhsIdx (ix2 p j) ((contrEquiv1 dot_S2048x768_S768x192_S2048x192_1_0_0_1_n_n 768 rfl rfl).symm k) = ix2 p k := funext fun a => Fin.ext (by
    match a with
    | ⟨0, _⟩ => exact lhs_row _ _
    | ⟨1, _⟩ => exact (lhs_contr _ _).trans hk)
  have er : dot_S2048x768_S768x192_S2048x192_1_0_0_1_n_n.rhsIdx (ix2 p j) ((contrEquiv1 dot_S2048x768_S768x192_S2048x192_1_0_0_1_n_n 768 rfl rfl).symm k) = ix2 k j := funext fun a => Fin.ext (by
    match a with
    | ⟨0, _⟩ => exact (rhs_contr _ _).trans hk
    | ⟨1, _⟩ => exact rhs_col _ _)
  rw [el, er]

/-- The sum along a row of a 2048 by 192 table, at row `p`. -/
theorem rowsum_at (v : FVec Ideal S2048x192 .f32) (hφ : FKind.Formats .f32) (hacc : (0x00000000#32 : BitVec 32) = FKind.add.neutral .f32 hφ) (p : Fin 2048) :
    multiReduction .add [1] S2048 v 0x00000000#32 reduces_S2048x192_S2048 hφ hacc (ix1 p) = ∑ j : Fin 192, v (ix2 p j) := by
  refine (Ideal.multiReduction_add_single v 0x00000000#32 reduces_S2048x192_S2048 hφ hacc (ix1 p)).trans ?_
  exact Finset.sum_congr rfl fun k _ => congrArg v (funext fun a => Fin.ext (by match a with | ⟨0, _⟩ => rfl | ⟨1, _⟩ => rfl))

/-- A vector of 2048 numbers stood up as a column: entry (p, 0) of the column is entry `p` of the vector. -/
theorem column_at (v : FVec Ideal S2048 .f32) (y : S2048x1.Idx) :
    shapeCast S2048x1 v shapeCasts_S2048_S2048x1 y = v (ix1 ⟨(y 0).val, idx2_lt0 y⟩) := by
  refine shapeCast_apply v shapeCasts_S2048_S2048x1 y _ ?_
  rewrite [Shape.rowMajor_val_one, Shape.rowMajor_val_two]
  have h1 : (y 1).val < 1 := (y 1).isLt
  show (y 0).val = (y 0).val * 1 + (y 1).val
  omega

/-! ## The body's four values at a local row -/

/-- The square root the body takes, at local row `y 0`: that row's score inside the block. -/
theorem score_at (x0 : Vec Ideal S2048x768 .f32) (x1 : Vec Ideal S768x192 .bf16) (y : S2048x1.Idx) :
    k0_pay1 (F := Ideal) x0 x1 y = blockNorm x0 x1 ⟨(y 0).val, idx2_lt0 y⟩ := by
  have hl : (truncf .bf16 (shapeCast S2048x768 x0 shapeCasts_S2048x768_S2048x768) bitsLt_bf16_f32 : FVec Ideal S2048x768 .bf16) = x0 := by
    rw [shapeCast_self]; rfl
  have hr : shapeCast S768x192 x1 shapeCasts_S768x192_S768x192 = x1 := shapeCast_self _ _
  unfold k0_pay1 blockNorm
  dsimp only
  show Ideal.sqrt (shapeCast S2048x1 _ shapeCasts_S2048_S2048x1 y) = _
  refine congrArg Ideal.sqrt ?_
  refine (column_at _ y).trans ?_
  refine (rowsum_at _ _ _ _).trans ?_
  refine Finset.sum_congr rfl fun j _ => ?_
  rw [hl, hr]
  exact congrArg₂ (· * ·) (matmul_at x0 x1 _ j) (matmul_at x0 x1 _ j)

/-- The comparison with one half, at a local row: the pass bit of that row's score. -/
theorem pass_at (x0 : Vec Ideal S2048x768 .f32) (x1 : Vec Ideal S768x192 .bf16) (y : S2048x1.Idx) :
    k0_pay2 (F := Ideal) x0 x1 y = pass (blockNorm x0 x1 ⟨(y 0).val, idx2_lt0 y⟩) := by
  unfold k0_pay2 pass
  show Ideal.cmp .oge (k0_pay1 (F := Ideal) x0 x1 y) _ = _
  rw [score_at]
  rfl

/-- The first stored column at a local row: the pass bit as the number one or zero. -/
theorem passNum_at (x0 : Vec Ideal S2048x768 .f32) (x1 : Vec Ideal S768x192 .bf16) (y : S2048x1.Idx) :
    k0_pay3 (F := Ideal) x0 x1 y = passNum (blockNorm x0 x1 ⟨(y 0).val, idx2_lt0 y⟩) := by
  unfold k0_pay3 passNum
  show (((((k0_pay2 (F := Ideal) x0 x1 y).setWidth 32).toInt : ℝ)) : EReal) = _
  rw [pass_at]

/-- The second stored column at a local row: the score where it passes, minus infinity elsewhere. -/
theorem kept_at (x0 : Vec Ideal S2048x768 .f32) (x1 : Vec Ideal S768x192 .bf16) (y : S2048x1.Idx) :
    k0_pay4 (F := Ideal) x0 x1 y = kept (blockNorm x0 x1 ⟨(y 0).val, idx2_lt0 y⟩) := by
  unfold k0_pay4 kept
  show Scalar.select (k0_pay2 (F := Ideal) x0 x1 y) (k0_pay1 (F := Ideal) x0 x1 y) _ = _
  rw [pass_at, score_at]
  rfl

/-- A block whose local row `p` holds token row `r` of the table `X`, beside the whole transposed weight `Wt`, scores that
    local row as the specification scores row `r`: the two sums agree term by term. -/
theorem blockNorm_of_rows (x0 : FVec Ideal S2048x768 .f32) (x1 : FVec Ideal S768x192 .bf16) (X : SX.Idx → EReal) (Wt : SW.Idx → EReal)
    (p : Fin 2048) (r : Fin 32768) (h0 : ∀ k : Fin 768, x0 (ix2 p k) = X (ix2 r k))
    (h1 : ∀ (k : Fin 768) (j : Fin 192), x1 (ix2 k j) = Wt (ix2 k j)) :
    blockNorm x0 x1 p = rowScore X Wt r := by
  unfold blockNorm rowScore blockProj rowProj
  refine congrArg Ideal.sqrt (Finset.sum_congr rfl fun j _ => ?_)
  have e : (∑ k : Fin 768, x0 (ix2 p k) * x1 (ix2 k j)) = ∑ k : Fin 768, X (ix2 r k) * Wt (ix2 k j) :=
    Finset.sum_congr rfl fun k _ => by rw [h0 k, h1 k j]
  rw [e]

end Cert.KernelIdeal.Block

end
-- ==== Proof.KernelColumns.lean ====
/-
  From blocks to arrays: what the kernel's two output columns hold after the run.

  The grid has 16 points. Point `t` reads token rows `2048·t … 2048·t + 2047` (its block of the 32768 by 768 table) and
  the whole transposed weight, and writes rows `2048·t … 2048·t + 2047` of both output columns. So entry `r` of the
  first column is the pass bit of row `r`'s score read as 0 / 1, and entry `r` of the second is the gated score of row
  `r`: each written block is the block of one whole-column function, and the 16 blocks cover the columns.
-/
import proofs.«126774_g34643206210297_cont_8to1_b_1077_5_alg».proof.Proof.Gen.KernelIdeal.Frame
import proofs.«126774_g34643206210297_cont_8to1_b_1077_5_alg».proof.Proof.BlockScore
import Idealize.ShloMosaic.Lib.Pipeline.Value

set_option maxRecDepth 16384

noncomputable section

namespace Cert.KernelIdeal.Columns

open Cert.KernelIdeal Cert.KernelIdeal.Gen Cert.KernelIdeal.Block Idealize.ShloMosaic Idealize.ShloMosaic.TcCoe Idealize.ShloMosaic.ValueIdx Idealize.SL.Sem Cert.GateSpec
open Idealize.ShloMosaic.Pipeline (Dat)

variable (m : (ℓ : Loc nD τ sig) → Buf (Elt Ideal) ℓ) (ρ : Dev nD → PrngReg)

/-- The token table as the kernel finds it. -/
abbrev tokens (c : Dev nD) : SX.Idx → EReal := V m c main_v0
/-- The transposed weight as the kernel finds it. -/
abbrev weightT (c : Dev nD) : SW.Idx → EReal := V m c main_v2

theorem hz : (![0, 0] : Fin 2 → Nat) = fun _ => 0 := funext fun a => by fin_cases a <;> rfl

/-- Where each window's block sits at point `t`: the token block and both output blocks at block row `t`, the weight
    always at its one block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Local row `p` of point `t`'s token block is token row `2048·t + p`. -/
theorem tokens_block (c : Dev nD) (t : Fin cfg0.N) (p : Fin 2048) (r : Fin 32768) (hr : r.val = t.val * 2048 + p.val) (k : Fin 768) :
    (iblk m c 0 t : Vec Ideal S2048x768 .f32) (ix2 p k) = tokens m c (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 768 + 1 * k.val = k.val; rw [e1]; omega

/-- Every point's weight block is the whole transposed weight. -/
theorem weight_block (c : Dev nD) (t : Fin cfg0.N) (k : Fin 768) (j : Fin 192) :
    (iblk m c 1 t : Vec Ideal S768x192 .bf16) (ix2 k j) = weightT m c (ix2 k j) := by
  obtain ⟨-, -, e2, e3, -⟩ := idx_facts t
  unfold iblk
  rw [View.read_apply]
  show V m c main_v2 _ = V m c main_v2 _
  congr 1
  funext a
  apply Fin.ext
  match a with
  | ⟨0, _⟩ => show win0_1.index t (0 : Fin 2) * 768 + 1 * k.val = k.val; rw [e2]; omega
  | ⟨1, _⟩ => show win0_1.index t (1 : Fin 2) * 192 + 1 * j.val = j.val; rw [e3]; omega

/-- The first output column: at row `r` the pass bit of row `r`'s score, as the number one or zero. -/
def passColumn (c : Dev nD) : S32768x1.Idx → EReal := fun i =>
  passNum (rowScore (tokens m c) (weightT m c) ⟨(i 0).val, idx2_lt0 i⟩)

/-- The second output column: at row `r` the gated score of row `r`. -/
def scoreColumn (c : Dev nD) : S32768x1.Idx → EReal := fun i =>
  kept (rowScore (tokens m c) (weightT m c) ⟨(i 0).val, idx2_lt0 i⟩)

/-- Local row `y 0` of point `t`'s blocks scores as token row `2048·t + y 0`. -/
theorem blockNorm_at (c : Dev nD) (t : Fin cfg0.N) (p : Fin 2048) (r : Fin 32768) (hr : r.val = t.val * 2048 + p.val) :
    blockNorm (iblk m c 0 t) (iblk m c 1 t) p = rowScore (tokens m c) (weightT m c) r :=
  blockNorm_of_rows (iblk m c 0 t) (iblk m c 1 t) (tokens m c) (weightT m c) p r
    (fun k => tokens_block m c t p r hr k) (fun k j => weight_block m c t k j)

/-- What point `t` writes back to the first column is its block of `passColumn`. -/
theorem flushed_pass (c : Dev nD) (t : Fin cfg0.N) :
    (dats m 0 c).flushed 2 t = ((cfg0.win 2).blk t).view.read (Elt Ideal) (passColumn m c) := by
  obtain ⟨-, -, -, -, e4, e5, -⟩ := idx_facts t
  show (cfg0.win 2).cut (grid0.coords t) ((dats m 0 c).after 2 t) = _
  rw [after0_2]
  unfold out0_2
  rw [View.canon_unit_zero hz]
  simp only [View.ld_unit_zero (S := S2048x768) hz, View.ld_unit_zero (S := S768x192) hz]
  funext y
  show k0_pay3 (F := Ideal) (iblk m c 0 t) (iblk m c 1 t) y = passColumn m c (((cfg0.win 2).blk t).view.emb y)
  refine (passNum_at _ _ y).trans ?_
  unfold passColumn
  refine congrArg passNum (blockNorm_at m c t _ _ ?_)
  show win0_2.index t (0 : Fin 2) * 2048 + 1 * (y 0).val = t.val * 2048 + (y 0).val
  rw [e4]; omega

/-- What point `t` writes back to the second column is its block of `scoreColumn`. -/
theorem flushed_score (c : Dev nD) (t : Fin cfg0.N) :
    (dats m 0 c).flushed 3 t = ((cfg0.win 3).blk t).view.read (Elt Ideal) (scoreColumn m c) := by
  obtain ⟨-, -, -, -, -, -, e6, e7⟩ := idx_facts t
  show (cfg0.win 3).cut (grid0.coords t) ((dats m 0 c).after 3 t) = _
  rw [after0_3]
  unfold out0_3
  rw [View.canon_unit_zero hz]
  simp only [View.ld_unit_zero (S := S2048x768) hz, View.ld_unit_zero (S := S768x192) hz]
  funext y
  show k0_pay4 (F := Ideal) (iblk m c 0 t) (iblk m c 1 t) y = scoreColumn m c (((cfg0.win 3).blk t).view.emb y)
  refine (kept_at _ _ y).trans ?_
  unfold scoreColumn
  refine congrArg kept (blockNorm_at m c t _ _ ?_)
  show win0_3.index t (0 : Fin 2) * 2048 + 1 * (y 0).val = t.val * 2048 + (y 0).val
  rw [e6]; omega

/-- A row of the first column is in point `t`'s block iff each coordinate is in the block's range. -/
theorem mem_blk_pass (t : Fin cfg0.N) (i : S32768x1.Idx) :
    i ∈ ((cfg0.win 2).blk t).view.set ↔ ∀ a : Fin 2, win0_2.index t a * S2048x1.size a ≤ (i a).val ∧ (i a).val < win0_2.index t a * S2048x1.size a + S2048x1.size a := by
  show i ∈ ((View.whole main_v3_0).slice (win0_2.rect t)).set ↔ _
  rw [View.set_slice_whole, Rect.mem_set_unit]
  exact Iff.rfl

/-- The same for the second column. -/
theorem mem_blk_score (t : Fin cfg0.N) (i : S32768x1.Idx) :
    i ∈ ((cfg0.win 3).blk t).view.set ↔ ∀ a : Fin 2, win0_3.index t a * S2048x1.size a ≤ (i a).val ∧ (i a).val < win0_3.index t a * S2048x1.size a + S2048x1.size a := by
  show i ∈ ((View.whole main_v3_1).slice (win0_3.rect t)).set ↔ _
  rw [View.set_slice_whole, Rect.mem_set_unit]
  exact Iff.rfl

/-- The point that writes row `r`: `r / 2048`. -/
def pointOf (i : S32768x1.Idx) : Fin cfg0.N :=
  ⟨(i 0).val / 2048, by have h0 : (i 0).val < 32768 := (i 0).isLt; have hN : grid0.N = 16 := N_0; show _ < grid0.N; omega⟩

/-- Every row of the first column is written by some point. -/
theorem cover_pass (i : S32768x1.Idx) :
    ∃ t : Fin cfg0.N, (cfg0.win 2).flush t = true ∧ i ∈ ((cfg0.win 2).blk t).view.set := by
  have h0 : (i 0).val < 32768 := (i 0).isLt
  have h1 : (i 1).val < 1 := (i 1).isLt
  obtain ⟨-, -, -, -, e4, e5, -⟩ := idx_facts (pointOf i)
  refine ⟨pointOf i, flush0_2 _, ?_⟩
  rw [mem_blk_pass]
  intro a
  match a with
  | ⟨0, _⟩ =>
    show win0_2.index (pointOf i) (0 : Fin 2) * 2048 ≤ (i 0).val ∧ (i 0).val < win0_2.index (pointOf i) (0 : Fin 2) * 2048 + 2048
    rw [e4]; show (i 0).val / 2048 * 2048 ≤ (i 0).val ∧ (i 0).val < (i 0).val / 2048 * 2048 + 2048; omega
  | ⟨1, _⟩ =>
    show win0_2.index (pointOf i) (1 : Fin 2) * 1 ≤ (i 1).val ∧ (i 1).val < win0_2.index (pointOf i) (1 : Fin 2) * 1 + 1
    rw [e5]; omega

/-- Every row of the second column is written by some point. -/
theorem cover_score (i : S32768x1.Idx) :
    ∃ t : Fin cfg0.N, (cfg0.win 3).flush t = true ∧ i ∈ ((cfg0.win 3).blk t).view.set := by
  have h0 : (i 0).val < 32768 := (i 0).isLt
  have h1 : (i 1).val < 1 := (i 1).isLt
  obtain ⟨-, -, -, -, -, -, e6, e7⟩ := idx_facts (pointOf i)
  refine ⟨pointOf i, flush0_3 _, ?_⟩
  rw [mem_blk_score]
  intro a
  match a with
  | ⟨0, _⟩ =>
    show win0_3.index (pointOf i) (0 : Fin 2) * 2048 ≤ (i 0).val ∧ (i 0).val < win0_3.index (pointOf i) (0 : Fin 2) * 2048 + 2048
    rw [e6]; show (i 0).val / 2048 * 2048 ≤ (i 0).val ∧ (i 0).val < (i 0).val / 2048 * 2048 + 2048; omega
  | ⟨1, _⟩ =>
    show win0_3.index (pointOf i) (1 : Fin 2) * 1 ≤ (i 1).val ∧ (i 1).val < win0_3.index (pointOf i) (1 : Fin 2) * 1 + 1
    rw [e7]; omega

/-- After the run the first column holds `passColumn`. -/
theorem final_pass (c : Dev nD) : (dats m 0 c).arrAt 2 cfg0.N = passColumn m c :=
  (dats m 0 c).arrAt_eq_of_cover 2 (passColumn m c) (fun t _ => flushed_pass m c t) cover_pass

/-- After the run the second column holds `scoreColumn`. -/
theorem final_score (c : Dev nD) : (dats m 0 c).arrAt 3 cfg0.N = scoreColumn m c :=
  (dats m 0 c).arrAt_eq_of_cover 3 (scoreColumn m c) (fun t _ => flushed_score m c t) cover_score

end Cert.KernelIdeal.Columns

end
-- ==== Proof.KernelResults.lean ====
/-
  The kernel's two results.

  After the 16 grid points the host lays each output column out as the 4 by 8192 table (entry (a, b) is row
  `8192·a + b` of the column) and, for the first result, asks of each entry whether the stored 0 / 1 number differs from
  zero, which gives the pass bit back. Before the grid the host had reshaped the activations to the 32768 by 768 token
  table and transposed the weight (its narrowing to bf16 is the identity over the reals). So the run ends with the
  specification's two tables of those two arrays, and the arguments as they were.
-/
import proofs.«126774_g34643206210297_cont_8to1_b_1077_5_alg».proof.Proof.KernelColumns
import Idealize.ShloMosaic.Lib.StableHlo.Run
import Idealize.ShloMosaic.Lib.Tactic

set_option maxRecDepth 16384

noncomputable section

namespace Cert.KernelIdeal.Results

open Cert.KernelIdeal Cert.KernelIdeal.Gen Cert.KernelIdeal.Block Cert.KernelIdeal.Columns Idealize.ShloMosaic Idealize.ShloMosaic.TcCoe Idealize.ShloMosaic.ValueIdx Idealize.SL.Sem Cert.GateSpec Idealize.ShloMosaic.StableHlo
open Idealize.ShloMosaic.Pipeline (Dat)

variable (m : (ℓ : Loc nD τ sig) → Buf (Elt Ideal) ℓ) (ρ : Dev nD → PrngReg)

/-- A column of 32768 entries laid out as the 4 by 8192 table: entry (a, b) is the column's row `8192·a + b`. -/
theorem column_table {α : Type} (v : S32768x1.Idx → α) (i : S4x8192.Idx) :
    shapeCast S4x8192 v shapeCasts_S32768x1_S4x8192 i = v (ix2 (row i) 0) := by
  refine shapeCast_apply v shapeCasts_S32768x1_S4x8192 i _ ?_
  rewrite [Shape.rowMajor_val_two, Shape.rowMajor_val_two]
  show ((i 0).val * 8192 + (i 1).val) * 1 + 0 = (i 0).val * 8192 + (i 1).val
  omega

/-- The first column as the lines after the grid find it. -/
theorem passColumn_found (c : Dev nD) :
    Pipeline.withArrays spec0 c (V0 m c) (fun w => (dats m 0 c).arrAt w cfg0.N) (Proc.devRef .tc main_v3_0) = passColumn m c :=
  (Pipeline.withArrays_arr spec0 launch0.win.arr_inj c _ _ 2).trans (final_pass m c)

/-- The second column as the lines after the grid find it. -/
theorem scoreColumn_found (c : Dev nD) :
    Pipeline.withArrays spec0 c (V0 m c) (fun w => (dats m 0 c).arrAt w cfg0.N) (Proc.devRef .tc main_v3_1) = scoreColumn m c :=
  (Pipeline.withArrays_arr spec0 launch0.win.arr_inj c _ _ 3).trans (final_score m c)

/-- The second result: the gated scores, as a table. -/
theorem tail_score (c : Dev nD) :
    Pipeline.afterTail₀ cfgs (dats m) 0 (V0 m) [hostOps1] c main_v8 = scoreTable (tokens m c) (weightT m c) := by
  unfold Pipeline.afterTail₀
  show StableHlo.after hostOps1 _ (Proc.devRef .tc main_v8) = _
  after_results
  funext i
  show shapeCast S4x8192 (Pipeline.withArrays spec0 c (V0 m c) (fun w => (dats m 0 c).arrAt w cfg0.N) (Proc.devRef .tc main_v3_1)) shapeCasts_S32768x1_S4x8192 i = _
  rw [scoreColumn_found, column_table]
  rfl

/-- The first result: the pass bits, as a table. -/
theorem tail_mask (c : Dev nD) :
    Pipeline.afterTail₀ cfgs (dats m) 0 (V0 m) [hostOps1] c main_v7 = maskTable (tokens m c) (weightT m c) := by
  unfold Pipeline.afterTail₀
  show StableHlo.after hostOps1 _ (Proc.devRef .tc main_v7) = _
  after_results
  funext i
  show Ideal.cmp .une (shapeCast S4x8192 (Pipeline.withArrays spec0 c (V0 m c) (fun w => (dats m 0 c).arrAt w cfg0.N) (Proc.devRef .tc main_v3_0)) shapeCasts_S32768x1_S4x8192 i) (Ideal.ofBits .f32 0x00000000#32) = _
  rw [passColumn_found, column_table]
  exact une_passNum _

/-- The token table the grid reads is the activations reshaped. -/
theorem tokens_eq (c : Dev nD) :
    tokens m c = shapeCast S32768x768 (m ((c : Thread nD τ).loc main_arg0)) shapeCasts_S4x8192x768_S32768x768 := by
  show StableHlo.after hostOps0 (fun b => m (c, b)) (Proc.devRef .tc main_v0) = _
  after_results
  rfl

/-- The weight the grid reads is the weight transposed. -/
theorem weightT_eq (c : Dev nD) :
    weightT m c = transpose S768x192 [1, 0] (m ((c : Thread nD τ).loc main_arg1)) transposes_S192x768_S768x192_1_0 := by
  show StableHlo.after hostOps0 (fun b => m (c, b)) (Proc.devRef .tc main_v2) = _
  after_results
  rfl

/-- The run, read: both results at the specification's tables of the reshaped activations and the transposed weight, the
    arguments unchanged. -/
theorem run : θ_run defs (onTc (τ := τ) (main (F := Ideal))) ⟨m, fun _ => 0, ρ⟩ fun r => ∀ c : Dev nD,
      r.2.mem ((c.tc : Thread nD τ).loc main_v7)
        = maskTable (shapeCast S32768x768 (m ((c.tc : Thread nD τ).loc main_arg0)) shapeCasts_S4x8192x768_S32768x768)
            (transpose S768x192 [1, 0] (m ((c.tc : Thread nD τ).loc main_arg1)) transposes_S192x768_S768x192_1_0)
      ∧ r.2.mem ((c.tc : Thread nD τ).loc main_v8)
        = scoreTable (shapeCast S32768x768 (m ((c.tc : Thread nD τ).loc main_arg0)) shapeCasts_S4x8192x768_S32768x768)
            (transpose S768x192 [1, 0] (m ((c.tc : Thread nD τ).loc main_arg1)) transposes_S192x768_S768x192_1_0)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v7 (Pipeline.mem_restRefs_of main_v7 (by decide) (by decide))).trans
        ((tail_mask m c).trans (by rw [tokens_eq, weightT_eq])),
      ((h c).2 main_v8 (Pipeline.mem_restRefs_of main_v8 (by decide) (by decide))).trans
        ((tail_score m c).trans (by rw [tokens_eq, weightT_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Results

end
-- ==== Proof.RefValue.lean ====
/-
  The reference, read entry by entry: its two results are the specification's two tables of the reshaped activations
  and the transposed weight.

  The reference multiplies the 32768 by 768 table of tokens with the 768 by 192 transposed weight, squares, sums each
  row starting from zero, takes the square root, compares with one half, and selects. Read at row `r`, the square root
  is `rowScore` of the two operands at `r`: the sum's starting value zero is absorbed, and the product's operand indices
  at result entry (r, j) and contraction index k are (r, k) and (k, j).
-/
import proofs.«126774_g34643206210297_cont_8to1_b_1077_5_alg».proof.Proof.Gen.ReferenceIdeal.Read
import proofs.«126774_g34643206210297_cont_8to1_b_1077_5_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.GateSpec

/-- In the product read at (r, j), the left operand's index at contraction index k is (r, k). -/
theorem left_index (r : S32768.Idx) (j : Fin 192) (k : Fin 768) :
    lidx_main_v2 (idx_main_v4 r j) k = ix2 ⟨(r 0).val, (r 0).isLt⟩ k :=
  funext fun a => Fin.ext (by match a with | ⟨0, _⟩ => rfl | ⟨1, _⟩ => rfl)

/-- And the right operand's is (k, j). -/
theorem right_index (r : S32768.Idx) (j : Fin 192) (k : Fin 768) :
    ridx_main_v2 (idx_main_v4 r j) k = ix2 k j :=
  funext fun a => Fin.ext (by match a with | ⟨0, _⟩ => rfl | ⟨1, _⟩ => rfl)

/-- The reference's square root at row `r` is that row's score. -/
theorem score_at (x0 : (⟨S4x8192x768, .f32⟩ : BufTy).Contents (Elt Ideal)) (x1 : (⟨S192x768, .f32⟩ : BufTy).Contents (Elt Ideal)) (r : S32768.Idx) :
    val_main_v5 (F := Ideal) x0 x1 r = rowScore (val_main_v0 (F := Ideal) x0) (val_main_v1 (F := Ideal) x1) ⟨(r 0).val, (r 0).isLt⟩ := by
  rw [val_main_v5_apply, val_main_v4_apply, val_main_cst_apply]
  unfold rowScore rowProj
  show Ideal.sqrt (Ideal.ofBits .f32 0x00000000#32 + _) = _
  rw [Ideal.ofBits_zero_f32, zero_add]
  refine congrArg Ideal.sqrt (Finset.sum_congr rfl fun j _ => ?_)
  rw [val_main_v3_apply, val_main_v2_apply]
  simp only [left_index, right_index]
  rfl

/-- The first result is the table of pass bits. -/
theorem mask_eq (x0 : (⟨S4x8192x768, .f32⟩ : BufTy).Contents (Elt Ideal)) (x1 : (⟨S192x768, .f32⟩ : BufTy).Contents (Elt Ideal)) :
    val_main_v8 (F := Ideal) x0 x1 = maskTable (val_main_v0 (F := Ideal) x0) (val_main_v1 (F := Ideal) x1) := by
  funext i
  rw [val_main_v8_apply, val_main_v7_apply, score_at, val_main_v6_apply, val_main_cst_0_apply]
  rfl

/-- The second result is the table of gated scores. -/
theorem score_eq (x0 : (⟨S4x8192x768, .f32⟩ : BufTy).Contents (Elt Ideal)) (x1 : (⟨S192x768, .f32⟩ : BufTy).Contents (Elt Ideal)) :
    val_main_v10 (F := Ideal) x0 x1 = scoreTable (val_main_v0 (F := Ideal) x0) (val_main_v1 (F := Ideal) x1) := by
  funext i
  rw [val_main_v10_apply, val_main_v9_apply, val_main_v7_apply, score_at, val_main_v6_apply, val_main_cst_0_apply,
    val_main_call0_v1_apply, val_main_call0_v0_apply, val_main_cst_1_apply]
  rfl

end Cert.ReferenceIdeal.RefValue

end
-- ==== Proof.lean ====
/-
  The gate kernel against its reference, over the extended reals.

  Both programs reshape the activations to a table of 32768 token rows and transpose the weight. Each row is projected
  onto 192 numbers; its score is the Euclidean norm of the projection; the row passes when the score is at least one
  half; the results are the pass bits and the scores gated by them (minus infinity where a row does not pass), both laid
  out 4 by 8192. The kernel does this 2048 rows at a time over a grid of 16 points and stores the pass bit as the
  number 0 / 1, which the host turns back into a bit by asking whether it differs from zero; the reference does it in
  one piece. Over the extended reals the kernel's narrowing to bf16 is the identity, its matrix product into a zero
  accumulator and the reference's product are the same sums, and so are the two row sums: both programs end with the
  specification's two tables (`GateSpec.maskTable`, `GateSpec.scoreTable`) of the same two arrays. Only the
  commutative-monoid structure of the extended reals is used, so the inputs' finiteness is never opened.

  The frames of the two kernel programs are the generated ones; the reference's is its generated run with the results
  dropped; the idealization rewrote nothing, so there is nothing to preserve.
-/
import proofs.«126774_g34643206210297_cont_8to1_b_1077_5_alg».proof.Defs
import proofs.«126774_g34643206210297_cont_8to1_b_1077_5_alg».proof.Proof.Gen.Kernel
import proofs.«126774_g34643206210297_cont_8to1_b_1077_5_alg».proof.Proof.Gen.Kernel.Skeleton
import proofs.«126774_g34643206210297_cont_8to1_b_1077_5_alg».proof.Proof.Gen.Kernel.Launch
import proofs.«126774_g34643206210297_cont_8to1_b_1077_5_alg».proof.Proof.Gen.Kernel.Points
import proofs.«126774_g34643206210297_cont_8to1_b_1077_5_alg».proof.Proof.Gen.Kernel.Frame
import proofs.«126774_g34643206210297_cont_8to1_b_1077_5_alg».proof.Proof.Gen.KernelIdeal
import proofs.«126774_g34643206210297_cont_8to1_b_1077_5_alg».proof.Proof.Gen.KernelIdeal.Skeleton
import proofs.«126774_g34643206210297_cont_8to1_b_1077_5_alg».proof.Proof.Gen.KernelIdeal.Launch
import proofs.«126774_g34643206210297_cont_8to1_b_1077_5_alg».proof.Proof.Gen.KernelIdeal.Points
import proofs.«126774_g34643206210297_cont_8to1_b_1077_5_alg».proof.Proof.Gen.KernelIdeal.Frame
import proofs.«126774_g34643206210297_cont_8to1_b_1077_5_alg».proof.Proof.Gen.ReferenceIdeal
import proofs.«126774_g34643206210297_cont_8to1_b_1077_5_alg».proof.Proof.Gen.Pre_finite_inputs
import proofs.«126774_g34643206210297_cont_8to1_b_1077_5_alg».proof.Proof.Gen.ReferenceIdeal.Run
import proofs.«126774_g34643206210297_cont_8to1_b_1077_5_alg».proof.Proof.Gen.ReferenceIdeal.Read
import proofs.«126774_g34643206210297_cont_8to1_b_1077_5_alg».proof.Proof.KernelResults
import proofs.«126774_g34643206210297_cont_8to1_b_1077_5_alg».proof.Proof.RefValue
import Idealize.ShloMosaic.Adequacy
import Idealize.ShloMosaic.Init

noncomputable section

namespace Cert.Proof

open Idealize.ShloMosaic Idealize.SL.Sem Cert.Kernel

theorem frame_kernel : Cert.frame_Kernel :=
  fun m ρ _ => Cert.Kernel.Gen.frame m ρ

theorem frame_kernelIdeal : Cert.frame_KernelIdeal :=
  fun m ρ _ => Cert.KernelIdeal.Gen.frame m ρ

theorem frame_reference : Cert.frame_ReferenceIdeal :=
  fun m ρ _ => (θ_run Cert.ReferenceIdeal.defs _ _).mono (fun _ h c => (h c).2.2)
    (Cert.ReferenceIdeal.Value.run (F := Ideal) m ρ)

/-- From memories that agree on the arguments, the kernel's run ends with the specification's two tables of the
    reshaped activations and the transposed weight, and so does the reference's. -/
theorem algebraic : Cert.algebraic_KernelIdeal_ReferenceIdeal := by
  intro m ρ m' ρ' _ hagree
  refine ⟨_, _, Cert.KernelIdeal.Results.run m ρ, ?_⟩
  refine (θ_run Cert.ReferenceIdeal.defs _ _).mono (fun _ h c => ⟨?_, ?_, (h c).2.2.1, (h c).2.2.2⟩)
    (Cert.ReferenceIdeal.Value.run (F := Ideal) m' ρ')
  · rw [(h c).1, Cert.ReferenceIdeal.Read.val_main_v8_eq, Cert.ReferenceIdeal.RefValue.mask_eq, (hagree c).1, (hagree c).2]
    rfl
  · rw [(h c).2.1, Cert.ReferenceIdeal.Read.val_main_v10_eq, Cert.ReferenceIdeal.RefValue.score_eq, (hagree c).1, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
